-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S1000000x128 : Shape := ⟨2, ![1000000, 128]⟩
abbrev S200000x128 : Shape := ⟨2, ![200000, 128]⟩
abbrev S128x512 : Shape := ⟨2, ![128, 512]⟩
abbrev S128 : Shape := ⟨1, ![128]⟩
abbrev S128x128 : Shape := ⟨2, ![128, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S200000 : S_.BroadcastsInDim S200000 (![] : Fin 0 → Fin S200000.rank)
  reducesTo_S200000_S_d0 : S200000.ReducesTo [0] S_

variable [Facts]

def fn_part2 {F : FTy → Type} [FloatOps F] (main_arg0 : IVec S200000 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S200000 32 := broadcastInDim S200000 ![] bcast_S_S200000 main_c_14
  let main_v40 : IVec S200000 1 := cmpi .sge main_arg0 main_v39
  let main_c_15 : IVec S_ 1 := constantI S_ 1 1#1
  let main_v41 : IVec S_ 1 := (fun x v => Host.reduce IntOp.andi x v reducesTo_S200000_S_d0 h_S_) main_v40 main_c_15
  let main_v42 : IVec S_ 1 := andi main_v38 main_v41
  main_v42

def fn_part1 {F : FTy → Type} [FloatOps F] (main_arg0 : IVec S200000 32) (main_arg5 : FVec F S128x512 .f32) (main_arg6 : FVec F S128 .f32) (main_arg7 : FVec F S128x128 .f32) (main_arg8 : FVec F S128 .f32) (main_v13 : IVec S_ 1) (main_v16 : IVec S200000x128 1) : IVec S_ 1 :=
  let main_c_5 : IVec S_ 1 := constantI S_ 1 1#1
  let main_v17 : IVec S_ 1 := (fun x v => Host.reduce IntOp.andi x v reducesTo_S200000x128_S_d0_1 h_S_) main_v16 main_c_5
  let main_v18 : IVec S_ 1 := andi main_v13 main_v17
  let main_v19 : FVec F S128x512 .f32 := Host.absf main_arg5
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg8 main_v33

def fn {F : FTy → Type} [FloatOps F] (main_arg0 : IVec S200000 32) (main_arg1 : FVec F S1000000x128 .f32) (main_arg2 : FVec F S200000x128 .f32) (main_arg3 : FVec F S200000x128 .f32) (main_arg4 : FVec F S200000x128 .f32) (main_arg5 : FVec F S128x512 .f32) (main_arg6 : FVec F S128 .f32) (main_arg7 : FVec F S128x128 .f32) (main_arg8 : FVec F S128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S200000x128 .f32 := Host.absf main_arg2
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S200000x128 .f32 := Host.absf main_arg3
  let main_cst_2 : FVec F S_ .f32 := constant S_ .f32 0x7F800000#32
  let main_v10 : FVec F S200000x128 .f32 := broadcastInDim S200000x128 ![] bcast_S_S200000x128 main_cst_2
  let main_v11 : IVec S200000x128 1 := cmpf .olt main_v9 main_v10
  let main_c_3 : IVec S_ 1 := constantI S_ 1 1#1
  let main_v12 : IVec S_ 1 := (fun x v => Host.reduce IntOp.andi x v reducesTo_S200000x128_S_d0_1 h_S_) main_v11 main_c_3
  let main_v13 : IVec S_ 1 := andi main_v8 main_v12
  let main_v14 : FVec F S200000x128 .f32 := Host.absf main_arg4
  let main_cst_4 : FVec F S_ .f32 := constant S_ .f32 0x7F800000#32
  let main_v15 : FVec F S200000x128 .f32 := broadcastInDim S200000x128 ![] bcast_S_S200000x128 main_cst_4
  let main_v16 : IVec S200000x128 1 := cmpf .olt main_v14 main_v15
  fn_part1 (F := F) main_arg0 main_arg5 main_arg6 main_arg7 main_arg8 main_v13 main_v16
-- ==== Kernel.lean ====
abbrev S200000 : Shape := ⟨1, ![200000]⟩
abbrev S1000000x128 : Shape := ⟨2, ![1000000, 128]⟩
abbrev S200000x128 : Shape := ⟨2, ![200000, 128]⟩
abbrev S128x512 : Shape := ⟨2, ![128, 512]⟩
abbrev S128 : Shape := ⟨1, ![128]⟩
abbrev S128x128 : Shape := ⟨2, ![128, 128]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S512x128 : Shape := ⟨2, ![512, 128]⟩
abbrev S4000x128 : Shape := ⟨2, ![4000, 128]⟩
abbrev S1x128 : Shape := ⟨2, ![1, 128]⟩

abbrev nBuf : Space → Nat
  | .hbm => 62
  | .vmem => 17
  | .smem => 0
  | _ => 0

abbrev bufTy : (tb : Table) → Fin (tcTables nBuf tb) → BufTy
  | .hbm, ⟨0, _⟩ => ⟨S200000, .i32⟩
  | .hbm, ⟨1, _⟩ => ⟨S1000000x128, .f32⟩
  | .hbm, ⟨2, _⟩ => ⟨S200000x128, .f32⟩
  | .hbm, ⟨3, _⟩ => ⟨S200000x128, .f32⟩
  | .hbm, ⟨4, _⟩ => ⟨S200000x128, .f32⟩
  | .hbm, ⟨5, _⟩ => ⟨S128x512, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S200000, .i32⟩
  | .hbm, ⟨13, _⟩ => ⟨S200000, .i32⟩
  | .hbm, ⟨14, _⟩ => ⟨S_, .i32⟩
  | .hbm, ⟨15, _⟩ => ⟨S200000, .i32⟩
  | .hbm, ⟨16, _⟩ => ⟨S200000, .i32⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S1, .i32⟩
  | .hbm, ⟨26, _⟩ => ⟨S_, .i32⟩
  | .hbm, ⟨27, _⟩ => ⟨S200000x1, .i32⟩
  | .hbm, ⟨28, _⟩ => ⟨S200000x1, .i1⟩
  | .hbm, ⟨29, _⟩ => ⟨S1x1, .i32⟩
  | .hbm, ⟨30, _⟩ => ⟨S200000x1, .i32⟩
  | .hbm, ⟨31, _⟩ => ⟨S200000x1, .i1⟩
  | .hbm, ⟨32, _⟩ => ⟨S200000x1, .i1⟩
  | .hbm, ⟨33, _⟩ => ⟨S_, .i1⟩
  | .hbm, ⟨34, _⟩ => ⟨S200000, .i1⟩
  | .hbm, ⟨35, _⟩ => ⟨S200000x128, .f32⟩
  | .hbm, ⟨36, _⟩ => ⟨S200000x128, .i1⟩
  | .hbm, ⟨37, _⟩ => ⟨S_, .f32⟩
  | .hbm, ⟨38, _⟩ => ⟨S200000x128, .f32⟩
  | .hbm, ⟨39, _⟩ => ⟨S200000x128, .f32⟩
  | .hbm, ⟨40, _⟩ => ⟨S200000x128, .bf16⟩
  | .hbm, ⟨41, _⟩ => ⟨S512x128, .f32⟩
  | .hbm, ⟨42, _⟩ => ⟨S128x128, .f32⟩
  | .hbm, ⟨43, _⟩ => ⟨S128x128, .bf16⟩
  | .hbm, ⟨44, _⟩ => ⟨S128x128, .f32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S128x128, .bf16⟩
  | .hbm, ⟨49, _⟩ => ⟨S128x128, .f32⟩
  | .hbm, ⟨50, _⟩ => ⟨S_, .f32⟩
  | .hbm, ⟨51, _⟩ => ⟨S128x128, .f32⟩
  | .hbm, ⟨52, _⟩ => ⟨S128x128, .f32⟩
  | .hbm, ⟨53, _⟩ => ⟨S128x128, .bf16⟩
  | .hbm, ⟨54, _⟩ => ⟨S128x128, .f32⟩
  | .hbm, ⟨55, _⟩ => ⟨S_, .f32⟩
  | .hbm, ⟨56, _⟩ => ⟨S128x128, .f32⟩
  | .hbm, ⟨57, _⟩ => ⟨S128x128, .f32⟩
  | .hbm, ⟨58, _⟩ => ⟨S128x128, .bf16⟩
  | .hbm, ⟨59, _⟩ => ⟨S128x128, .f32⟩
  | .hbm, ⟨60, _⟩ => ⟨S128x128, .bf16⟩
  | .hbm, ⟨61, _⟩ => ⟨S200000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128, .f32⟩
  | .local _ .vmem, ⟨14, _⟩ => ⟨S128, .f32⟩
  | .local _ .vmem, ⟨15, _⟩ => ⟨S4000x128, .f32⟩
  | .local _ .vmem, ⟨16, _⟩ => ⟨S4000x128, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_2 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x128_0 : S200000.BroadcastsInDim S200000x128 (![0] : Fin 1 → Fin S200000x128.rank)
  bcast_S_S200000x128 : S_.BroadcastsInDim S200000x128 (![] : Fin 0 → Fin S200000x128.rank)
  bitsLt_bf16_f32 : FTy.bits .bf16 < FTy.bits .f32
  transposes_S128x512_S512x128_1_0 : S128x512.Transposes [1, 0] S512x128
  slices_S512x128_S128x128_0_0 : S512x128.Slices ![0, 0] S128x128
  slices_S512x128_S128x128_128_0 : S512x128.Slices ![128, 0] S128x128
  bcast_S_S128x128 : S_.BroadcastsInDim S128x128 (![] : Fin 0 → Fin S128x128.rank)
  slices_S512x128_S128x128_256_0 : S512x128.Slices ![256, 0] S128x128
  slices_S512x128_S128x128_384_0 : S512x128.Slices ![384, 0] S128x128
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  gather_S1000000x128_S200000x1_S200000x128_1_0_n_n_0_1_1128_wf : GatherDims.WF S1000000x128 S200000x1 S200000x128 [1] [0] [] [0] [] 1 ![1, 128]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .bf16 = 32 ∨ (Rect.block (s := S200000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S200000x128.size a
  hwx0_11 : ∀ i : grid0.Coords, EltTy.bits .f32 = 32 ∨ (Rect.block (s := S200000x128) S4000x128.size (cc0_transform_11 i) (hinb0_11 i)).WholeWords (EltTy.packing .f32)

variable [Facts₀]

def gather_S1000000x128_S200000x1_S200000x128_1_0_n_n_0_1_1128 : GatherDims S1000000x128 S200000x1 S200000x128 where
  offsetDims := [1]
  collapsedSliceDims := [0]
  operandBatchingDims := []
  startIndicesBatchingDims := []
  startIndexMap := [0]
  indexVectorDim := 1
  sliceSizes := ![1, 128]
  wf := gather_S1000000x128_S200000x1_S200000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v2) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S200000 : Shape := ⟨1, ![200000]⟩
abbrev S1000000x128 : Shape := ⟨2, ![1000000, 128]⟩
abbrev S200000x128 : Shape := ⟨2, ![200000, 128]⟩
abbrev S128x512 : Shape := ⟨2, ![128, 512]⟩
abbrev S128 : Shape := ⟨1, ![128]⟩
abbrev S128x128 : Shape := ⟨2, ![128, 128]⟩
abbrev S_ : Shape := ⟨0, ![]⟩
abbrev S200000x1 : Shape := ⟨2, ![200000, 1]⟩
abbrev S200000x512 : Shape := ⟨2, ![200000, 512]⟩
abbrev S512x128 : Shape := ⟨2, ![512, 128]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S200000, .i32⟩
  | .hbm, ⟨1, _⟩ => ⟨S1000000x128, .f32⟩
  | .hbm, ⟨2, _⟩ => ⟨S200000x128, .f32⟩
  | .hbm, ⟨3, _⟩ => ⟨S200000x128, .f32⟩
  | .hbm, ⟨4, _⟩ => ⟨S200000x128, .f32⟩
  | .hbm, ⟨5, _⟩ => ⟨S128x512, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S200000x128, .f32⟩
  | .hbm, ⟨18, _⟩ => ⟨S_, .f32⟩
  | .hbm, ⟨19, _⟩ => ⟨S200000x128, .f32⟩
  | .hbm, ⟨20, _⟩ => ⟨S200000x128, .f32⟩
  | .hbm, ⟨21, _⟩ => ⟨S_, .f32⟩
  | .hbm, ⟨22, _⟩ => ⟨S200000x128, .f32⟩
  | .hbm, ⟨23, _⟩ => ⟨S200000x128, .f32⟩
  | .hbm, ⟨24, _⟩ => ⟨S_, .f32⟩
  | .hbm, ⟨25, _⟩ => ⟨S200000x128, .f32⟩
  | .hbm, ⟨26, _⟩ => ⟨S200000x128, .f32⟩
  | .hbm, ⟨27, _⟩ => ⟨S200000x512, .f32⟩
  | .hbm, ⟨28, _⟩ => ⟨S512x128, .f32⟩
  | .hbm, ⟨29, _⟩ => ⟨S200000x128, .f32⟩
  | .hbm, ⟨30, _⟩ => ⟨S1x128, .f32⟩
  | .hbm, ⟨31, _⟩ => ⟨S200000x128, .f32⟩
  | .hbm, ⟨32, _⟩ => ⟨S200000x128, .f32⟩
  | .hbm, ⟨33, _⟩ => ⟨S200000x128, .f32⟩
  | .hbm, ⟨34, _⟩ => ⟨S128x128, .f32⟩
  | .hbm, ⟨35, _⟩ => ⟨S200000x128, .f32⟩
  | .hbm, ⟨36, _⟩ => ⟨S1x128, .f32⟩
  | .hbm, ⟨37, _⟩ => ⟨S200000x128, .f32⟩
  | .hbm, ⟨38, _⟩ => ⟨S200000x128, .f32⟩
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S200000x128 : S_.BroadcastsInDim S200000x128 (![] : Fin 0 → Fin S200000x128.rank)
  concatenates_S200000x128_S200000x128_S200000x128_S200000x128_S200000x512_d1 : Shape.Concatenates [S200000x128, S200000x128, S200000x128, S200000x128] S200000x512 1
  transposes_S128x512_S512x128_1_0 : S128x512.Transposes [1, 0] S512x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  transposes_S128x128_S128x128_1_0 : S128x128.Transposes [1, 0] S128x128
  gather_S1000000x128_S200000x1_S200000x128_1_0_n_n_0_1_1128_wf : GatherDims.WF S1000000x128 S200000x1 S200000x128 [1] [0] [] [0] [] 1 ![1, 128]
  dot_S200000x512_S512x128_S200000x128_1_0_0_1_n_n_wf : DotDims.WF S200000x512 S512x128 S200000x128 [1] [0] [0] [1] [] []
  dot_S200000x128_S128x128_S200000x128_1_0_0_1_n_n_wf : DotDims.WF S200000x128 S128x128 S200000x128 [1] [0] [0] [1] [] []

variable [Facts₀]

def gather_S1000000x128_S200000x1_S200000x128_1_0_n_n_0_1_1128 : GatherDims S1000000x128 S200000x1 S200000x128 where
  offsetDims := [1]
  collapsedSliceDims := [0]
  operandBatchingDims := []
  startIndicesBatchingDims := []
  startIndexMap := [0]
  indexVectorDim := 1
  sliceSizes := ![1, 128]
  wf := gather_S1000000x128_S200000x1_S200000x128_1_0_n_n_0_1_1128_wf
def dot_S200000x512_S512x128_S200000x128_1_0_0_1_n_n : DotDims S200000x512 S512x128 S200000x128 where
  lhsContracting := [1]
  rhsContracting := [0]
  lhsNonContracting := [0]
  rhsNonContracting := [1]
  lhsBatch := []
  rhsBatch := []
  wf := dot_S200000x512_S512x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.KernelPayload.lean ====
import proofs.«401388_j41412074668228_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.TcCoe Idealize.ShloMosaic.ValueIdx

/-- The left operand's row coordinate of the product's index map is the output's row. -/
theorem mm_lhs_0 (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contraction position. -/
theorem mm_lhs_1 (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
/-- The right operand's row coordinate is the contraction position. -/
theorem mm_rhs_0 (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
/-- The right operand's column coordinate is the output's column. -/
theorem mm_rhs_1 (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] × [128,128] product into the zero accumulator, read at `(p, q)`: the sum over the 128 inner
    indices of row `p` of the left times column `q` of the right. -/
theorem mm_apply (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

/-- The bias row, cast to one row and repeated over the 4000 rows, read at `(p, k)`: entry `k` of the row. -/
theorem bias_apply (v23 : FVec Ideal S128 .f32) (p : Fin 4000) (k : Fin 128) :
    broadcastTo S4000x128 (shapeCast S1x128 v23 shapeCasts_S128_S1x128) broadcasts_S1x128_S4000x128 (ix2 p k)
      = v23 (ix1 k) := by
  rw [broadcastTo_1b_ab_apply, shapeCast_a_1a_apply]

/-- The body's arithmetic at block entry `(p, q)`: the four first-layer products summed, the bias added, `tanh`,
    and the second-layer product — every matrix product a plain sum over its 128 inner indices. -/
theorem pay2_apply (v0 : FVec Ideal S4000x128 .bf16) (v2 v4 v6 : FVec Ideal S4000x128 .f32)
    (v8 v10 v12 v14 : FVec Ideal S128x128 .bf16) (v23 : FVec Ideal S128 .f32) (v29 : FVec Ideal S128x128 .bf16)
    (p : Fin 4000) (q : Fin 128) :
    k0_pay2 (F := Ideal) v0 v2 v4 v6 v8 v10 v12 v14 v23 v29 (ix2 p q)
      = ∑ k : Fin 128, Ideal.tanh (((((∑ j : Fin 128, v0 (ix2 p j) * v8 (ix2 j k))
            + ∑ j : Fin 128, v2 (ix2 p j) * v10 (ix2 j k))
            + ∑ j : Fin 128, v4 (ix2 p j) * v12 (ix2 j k))
            + ∑ j : Fin 128, v6 (ix2 p j) * v14 (ix2 j k))
          + v23 (ix1 k)) * v29 (ix2 k q) := by
  unfold k0_pay2
  refine (mm_apply _ _ p q).trans ?_
  refine Finset.sum_congr rfl fun k _ => ?_
  rw [shapeCast_self v29]
  refine congrArg (· * v29 (ix2 k q)) ?_
  rw [truncf_apply]
  refine congrArg Ideal.tanh ?_
  rw [addf_apply, addf_apply, addf_apply, addf_apply, mm_apply, mm_apply, mm_apply, mm_apply, bias_apply,
    shapeCast_self v0, shapeCast_self v8, shapeCast_self v10, shapeCast_self v12, shapeCast_self v14]
  rfl

end Cert.KernelIdeal.Payload

end
-- ==== Proof.Spec.lean ====
import Idealize.ShloMosaic.PureOps.Ideal
import Idealize.ShloMosaic.Lib.ValueIdx

/-!
# The two-layer node encoder as one function of the argument arrays

For batch row `r` the encoder reads row `row nodes r` of the feature table, places it beside the three
neighbour rows scaled by the channel weights 1, 1/2 and 2 (a row of 512 numbers), applies the first linear
layer `W1` (128 × 512) with bias `b1`, then `tanh`, then the second linear layer `W2` (128 × 128) with bias `b2`.

Written with the first layer already split into its four bands of 128 columns and with each channel weight
moved onto the weight band:
`pre r k = Σⱼ feat[row r, j]·W1[k, j] + Σⱼ n0[r, j]·(W1[k, 128 + j]·1) + Σⱼ n1[r, j]·(W1[k, 256 + j]·½)
           + Σⱼ n2[r, j]·(W1[k, 384 + j]·2) + b1[k]` and `G (r, e) = Σₖ tanh (pre r k)·W2[e, k] + b2[e]`.
Every float is an extended real; products and sums are those of `EReal`, which are commutative and associative,
so no finiteness is needed to regroup them.
-/

noncomputable section

namespace Cert.MlpSpec

open Idealize.ShloMosaic Idealize.ShloMosaic.ValueIdx

/-- The table row batch row `r` reads: its node id read as a signed integer and clamped into `[0, 999999]`. -/
def row (nodes : (⟨1, ![200000]⟩ : Shape).Idx → BitVec 32) (r : Fin 200000) : Fin 1000000 :=
  ⟨min (nodes (ix1 r)).toInt.toNat 999999, by omega⟩

/-- The channel weights, as the float words both programs carry. -/
def cOne : EReal := Ideal.ofBits .f32 0x3F800000#32
def cHalf : EReal := Ideal.ofBits .f32 0x3F000000#32
def cTwo : EReal := Ideal.ofBits .f32 0x40000000#32

/-- Column `o + j` of the first layer's 512 input columns, for a band starting at `o`. -/
def col (o : Nat) (h : o + 128 ≤ 512) (j : Fin 128) : Fin 512 := ⟨o + j.val, by omega⟩

/-- The first layer's output before `tanh`, band by band. -/
def pre (nodes : (⟨1, ![200000]⟩ : Shape).Idx → BitVec 32) (feat : (⟨2, ![1000000, 128]⟩ : Shape).Idx → EReal)
    (n0 n1 n2 : (⟨2, ![200000, 128]⟩ : Shape).Idx → EReal) (W1 : (⟨2, ![128, 512]⟩ : Shape).Idx → EReal)
    (b1 : (⟨1, ![128]⟩ : Shape).Idx → EReal) (r : Fin 200000) (k : Fin 128) : EReal :=
  ((((∑ j : Fin 128, feat (ix2 (row nodes r) j) * W1 (ix2 k (col 0 (by omega) j)))
      + ∑ j : Fin 128, n0 (ix2 r j) * (W1 (ix2 k (col 128 (by omega) j)) * cOne))
      + ∑ j : Fin 128, n1 (ix2 r j) * (W1 (ix2 k (col 256 (by omega) j)) * cHalf))
      + ∑ j : Fin 128, n2 (ix2 r j) * (W1 (ix2 k (col 384 (by omega) j)) * cTwo))
    + b1 (ix1 k)

/-- The encoder's result array. -/
def G (nodes : (⟨1, ![200000]⟩ : Shape).Idx → BitVec 32) (feat : (⟨2, ![1000000, 128]⟩ : Shape).Idx → EReal)
    (n0 n1 n2 : (⟨2, ![200000, 128]⟩ : Shape).Idx → EReal) (W1 : (⟨2, ![128, 512]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨2, ![200000, 128]⟩ : Shape).Idx → EReal := fun i =>
  (∑ k : Fin 128, Ideal.tanh (pre nodes feat n0 n1 n2 W1 b1 ⟨(i 0).val, idx2_lt0 i⟩ k)
      * W2 (ix2 ⟨(i 1).val, idx2_lt1 i⟩ k))
    + b2 (ix1 ⟨(i 1).val, idx2_lt1 i⟩)

/-- A sum over the 512 input columns is the sum of its four bands of 128. -/
theorem sum_bands (f : Fin 512 → EReal) :
    ∑ j : Fin 512, f j = (((∑ j : Fin 128, f (col 0 (by omega) j)) + ∑ j : Fin 128, f (col 128 (by omega) j))
      + ∑ j : Fin 128, f (col 256 (by omega) j)) + ∑ j : Fin 128, f (col 384 (by omega) j) := by
  have h4 : ∀ g : Fin (128 + 128 + 128 + 128) → EReal, ∑ j, g j
      = (((∑ j : Fin 128, g ⟨j.val, by omega⟩) + ∑ j : Fin 128, g ⟨128 + j.val, by omega⟩)
        + ∑ j : Fin 128, g ⟨256 + j.val, by omega⟩) + ∑ j : Fin 128, g ⟨384 + j.val, by omega⟩ := by
    intro g
    rw [Fin.sum_univ_add, Fin.sum_univ_add, Fin.sum_univ_add]
    rfl
  have := h4 (fun j => f ⟨j.val, j.isLt⟩)
  simpa [col] using this

end Cert.MlpSpec

end
-- ==== Proof.NodeIds.lean ====
import Idealize.ShloMosaic.PureOps
import Idealize.ShloMosaic.Lib.StableHlo.Predicate

/-!
# Node ids as table rows

Both programs turn a 32-bit node id `x` into a row of the 1,000,000-row feature table.
The kernel's wrapper first clips the id into `[0, 999999]` and then applies the gather helper's wrap of
negative ids (which, after the clip, never fires); the reference applies only the wrap (`x + 1000000` when `x < 0`).
The gather itself reads the word signed and clamps it into `[0, 999999]`.
For a non-negative id the two rows are the same: `min x 999999`.
-/

namespace Cert.NodeIds

open Idealize.ShloMosaic

/-- The word the kernel's wrapper hands the gather: the id clipped into `[0, 999999]`, then the wrap of negatives. -/
def clipWord (x : BitVec 32) : BitVec 32 :=
  Scalar.select (IntOp.cmpi .slt (IntOp.minsi 999999#32 (IntOp.maxsi 0#32 x)) 0#32)
    (IntOp.addi (IntOp.minsi 999999#32 (IntOp.maxsi 0#32 x)) 1000000#32)
    (IntOp.minsi 999999#32 (IntOp.maxsi 0#32 x))

/-- The word the reference hands the gather: the wrap of negatives alone. -/
def wrapWord (x : BitVec 32) : BitVec 32 :=
  Scalar.select (IntOp.cmpi .slt x 0#32) (IntOp.addi x 1000000#32) x

private theorem toInt_zero : (0#32 : BitVec 32).toInt = 0 := by decide

private theorem toInt_hi : (999999#32 : BitVec 32).toInt = 999999 := by decide

/-- The lower clip `max 0 x` leaves a non-negative id alone. -/
private theorem maxsi_zero (x : BitVec 32) (h : 0 ≤ x.toInt) : IntOp.maxsi 0#32 x = x := by
  have hs : x.slt 0#32 = false := by
    simp only [BitVec.slt, toInt_zero, decide_eq_false_iff_not]; omega
  simp only [IntOp.maxsi, hs]
  rfl

/-- The clipped id `min 999999 x` lies in `[0, 999999]`. -/
private theorem clip_bounds (x : BitVec 32) (h : 0 ≤ x.toInt) :
    0 ≤ (IntOp.minsi 999999#32 x).toInt ∧ (IntOp.minsi 999999#32 x).toInt ≤ 999999 := by
  unfold IntOp.minsi
  split <;> rename_i hc <;> simp only [BitVec.slt, toInt_hi, decide_eq_true_eq] at hc
  · rw [toInt_hi]; omega
  · omega

/-- After the clip the wrap of negatives never fires: the wrapper's word is `min 999999 x`. -/
theorem clipWord_eq (x : BitVec 32) (h : 0 ≤ x.toInt) : clipWord x = IntOp.minsi 999999#32 x := by
  unfold clipWord
  rw [maxsi_zero x h]
  have hs : (IntOp.minsi 999999#32 x).slt 0#32 = false := by
    simp only [BitVec.slt, toInt_zero, decide_eq_false_iff_not]; have := (clip_bounds x h).1; omega
  simp only [IntOp.cmpi, hs, BitVec.ofBool_false, Scalar.select]
  rfl

/-- A non-negative id is not wrapped. -/
theorem wrapWord_eq (x : BitVec 32) (h : 0 ≤ x.toInt) : wrapWord x = x := by
  -- the sign test `x < 0` is false, so the select keeps `x`
  have hs : x.slt 0#32 = false := by
    simp only [BitVec.slt, toInt_zero, decide_eq_false_iff_not]; omega
  simp only [wrapWord, IntOp.cmpi, hs, BitVec.ofBool_false, Scalar.select]
  rfl

/-- After the clip the gather's clamped row is the id's own clamped row. -/
theorem clipWord_row (x : BitVec 32) (h : 0 ≤ x.toInt) :
    min (clipWord x).toInt.toNat 999999 = min x.toInt.toNat 999999 := by
  rw [clipWord_eq x h]
  unfold IntOp.minsi
  split <;> rename_i hc <;> simp only [BitVec.slt, toInt_hi, decide_eq_true_eq] at hc
  · rw [toInt_hi]; omega
  · rfl

/-- The clipped word passes the gather helper's range test `0 ≤ w ∧ w ≤ 999999`. -/
theorem clipWord_inRange (x : BitVec 32) (h : 0 ≤ x.toInt) :
    IntOp.andi (IntOp.cmpi .sge (clipWord x) 0#32) (IntOp.cmpi .sle (clipWord x) 999999#32) = 1#1 := by
  rw [clipWord_eq x h]
  obtain ⟨h0, h1⟩ := clip_bounds x h
  have hge : (0#32 : BitVec 32).sle (IntOp.minsi 999999#32 x) = true := by
    simp only [BitVec.sle, toInt_zero, decide_eq_true_eq]; exact h0
  have hle : (IntOp.minsi 999999#32 x).sle 999999#32 = true := by
    simp only [BitVec.sle, toInt_hi, decide_eq_true_eq]; exact h1
  simp only [IntOp.cmpi, hge, hle, BitVec.ofBool_true, IntOp.andi]
  rfl

end Cert.NodeIds
-- ==== Proof.KernelHostSelf.lean ====
import proofs.«401388_j41412074668228_3_alg».proof.Proof.Gen.KernelIdeal.Frame
import proofs.«401388_j41412074668228_3_alg».proof.Proof.Spec
import proofs.«401388_j41412074668228_3_alg».proof.Proof.NodeIds
import Idealize.ShloMosaic.Lib.StableHlo.Run
import Idealize.ShloMosaic.Lib.ValueIdx
import Idealize.ShloMosaic.Lib.Pipeline.Value

/-!
# The gathered rows the region stages

Row `r` of the array the kernel's region reads its table rows from is row `row nodes r` of the feature table, when
every node id is non-negative: the start-index word of row `r` is the id clipped into `[0, 999999]` (the wrap of
negatives never fires after the clip), the gather clamps it to the same row as the id's own clamp, and the range
mask of the gather helper is 1 at every row, so its fill value is never selected.
-/

noncomputable section

namespace Cert.KernelIdeal.HostVals

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! The node ids and the feature table as launched, each at its literal type. -/
abbrev sNodes (c : Dev nD) : IVec S200000 32 := m ((c : Thread nD τ).loc main_arg0)
abbrev sFeat (c : Dev nD) : FVec Ideal S1000000x128 .f32 := m ((c : Thread nD τ).loc main_arg1)
/-- The gathered rows as the region finds them, at their literal type. -/
abbrev sSelf (c : Dev nD) : FVec Ideal S200000x128 .bf16 := V m c main_v2

/-- The start-index words handed to the gather: each node id clipped into `[0, 999999]`, then the wrap of negatives,
    as a column. -/
def idxWords (x : IVec S200000 32) : IVec S200000x1 32 :=
  broadcastInDim S200000x1 ![0] bcast_S200000_S200000x1_0
    (select (cmpi .slt (minsi (broadcastInDim S200000 ![] bcast_S_S200000 (constantI S_ 32 999999#32)) (maxsi (broadcastInDim S200000 ![] bcast_S_S200000 (constantI S_ 32 0#32)) x)) (broadcastInDim S200000 ![] bcast_S_S200000 (constantI S_ 32 0#32)))
      (addi (minsi (broadcastInDim S200000 ![] bcast_S_S200000 (constantI S_ 32 999999#32)) (maxsi (broadcastInDim S200000 ![] bcast_S_S200000 (constantI S_ 32 0#32)) x)) (broadcastInDim S200000 ![] bcast_S_S200000 (constantI S_ 32 1000000#32)))
      (minsi (broadcastInDim S200000 ![] bcast_S_S200000 (constantI S_ 32 999999#32)) (maxsi (broadcastInDim S200000 ![] bcast_S_S200000 (constantI S_ 32 0#32)) x)))

/-- Row `r` of the column of start-index words is the clipped word of node id `r`. -/
theorem idxWords_apply (x : IVec S200000 32) (r : Fin 200000) :
    idxWords x (ix2 r 0) = Cert.NodeIds.clipWord (x (ix1 r)) := by
  unfold idxWords
  refine (broadcastInDim_apply ![0] bcast_S200000_S200000x1_0 _ (ix2 r 0) (ix1 r) (fun a => ?_)).trans ?_
  · obtain rfl : a = 0 := Subsingleton.elim _ _
    exact (if_neg (by decide)).symm
  · rfl

/-- A left fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    have h1 : IntOp.andi 1#1 1#1 = 1#1 := by decide
    rw [List.foldl_cons, hx a, h1]
    exact foldl_andi_ones x hx l

/-- The gather helper's range mask is 1 at every row, when every node id is non-negative. -/
theorem mask_apply (x : IVec S200000 32) (h0 : ∀ r : Fin 200000, 0 ≤ (x (ix1 r)).toInt) (r : Fin 200000) :
    Host.reduce IntOp.andi (andi (cmpi .sge (idxWords x) (broadcastInDim S200000x1 ![] bcast_S_S200000x1 (constantI S_ 32 0#32)))
        (cmpi .sle (idxWords x) (broadcastInDim S200000x1 ![0, 1] bcast_S1x1_S200000x1_0_1 (broadcastInDim S1x1 ![1] bcast_S1_S1x1_1 (constantI S1 32 999999#32)))))
      (constantI S_ 1 1#1) reducesTo_S200000x1_S200000_d1 h_S_ (ix1 r) = 1#1 := by
  rw [Host.reduce_eq_foldl]
  refine foldl_andi_ones _ (fun i => ?_) _
  obtain ⟨a, b, rfl⟩ : ∃ (a : Fin 200000) (b : Fin 1), i = ix2 a b := ⟨_, _, eq_ix2 i⟩
  obtain rfl : b = 0 := Subsingleton.elim _ _
  show IntOp.andi (IntOp.cmpi .sge (idxWords x (ix2 a 0)) 0#32) (IntOp.cmpi .sle (idxWords x (ix2 a 0)) 999999#32) = 1#1
  rw [idxWords_apply]
  exact Cert.NodeIds.clipWord_inRange _ (h0 a)

/-- The table gather read at `(r, j)`: the table at the row named by start index `idx[r, 0]`, read signed and clamped
    into `[0, 999999]`, and at column `j`. -/
theorem gather_apply {α : Type} {w : Nat} (x : S1000000x128.Idx → α) (idx : IVec S200000x1 w) (r : Fin 200000) (j : Fin 128) :
    Host.gather gather_S1000000x128_S200000x1_S200000x128_1_0_n_n_0_1_1128 x idx (ix2 r j)
      = x (ix2 ⟨min (idx (ix2 r 0)).toInt.toNat 999999, by omega⟩ j) := by
  unfold Host.gather
  refine congrArg x (funext fun a => Fin.ext ?_)
  match a with
  | ⟨0, _⟩ =>
    show gather_S1000000x128_S200000x1_S200000x128_1_0_n_n_0_1_1128.start (ix2 r j) idx 0
      + gather_S1000000x128_S200000x1_S200000x128_1_0_n_n_0_1_1128.batchCoord (ix2 r j) 0
      + gather_S1000000x128_S200000x1_S200000x128_1_0_n_n_0_1_1128.offCoord (ix2 r j) 0 = _
    -- the collapsed table axis: no batching coordinate, no offset coordinate, the clamped start index
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x128_S200000x1_S200000x128_1_0_n_n_0_1_1128.startIndexMap from
      List.mem_singleton.mpr rfl)]
    have hsi : gather_S1000000x128_S200000x1_S200000x128_1_0_n_n_0_1_1128.siIdx (ix2 r j)
        ⟨List.idxOf (0 : Fin 2) gather_S1000000x128_S200000x1_S200000x128_1_0_n_n_0_1_1128.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show gather_S1000000x128_S200000x1_S200000x128_1_0_n_n_0_1_1128.start (ix2 r j) idx 1
      + gather_S1000000x128_S200000x1_S200000x128_1_0_n_n_0_1_1128.batchCoord (ix2 r j) 1
      + gather_S1000000x128_S200000x1_S200000x128_1_0_n_n_0_1_1128.offCoord (ix2 r j) 1 = _
    -- the column axis: no start index, no batching coordinate, the result's column as offset
    rw [GatherDims.batchCoord_eq_zero _ _ _ List.not_mem_nil]
    unfold GatherDims.start
    rw [dif_neg (show ¬ (1 : Fin 2) ∈ gather_S1000000x128_S200000x1_S200000x128_1_0_n_n_0_1_1128.startIndexMap by decide)]
    simp only [Nat.add_zero, Nat.zero_add]
    rfl

set_option maxHeartbeats 2000000 in
set_option maxRecDepth 16384 in
/-- The gathered rows as the composed term of the host operations that wrote them: the gather at the start-index words,
    kept where the range mask is 1 and replaced by the fill value elsewhere, then narrowed. -/
theorem v2_term (c : Dev nD) : V m c main_v2 = (truncf .bf16
    (select (broadcastInDim S200000x128 ![0] bcast_S200000_S200000x128_0
        (Host.reduce IntOp.andi (andi (cmpi .sge (idxWords (m ((c : Thread nD τ).loc main_arg0))) (broadcastInDim S200000x1 ![] bcast_S_S200000x1 (constantI S_ 32 0#32)))
            (cmpi .sle (idxWords (m ((c : Thread nD τ).loc main_arg0))) (broadcastInDim S200000x1 ![0, 1] bcast_S1x1_S200000x1_0_1 (broadcastInDim S1x1 ![1] bcast_S1_S1x1_1 (constantI S1 32 999999#32)))))
          (constantI S_ 1 1#1) reducesTo_S200000x1_S200000_d1 h_S_))
      (Host.gather gather_S1000000x128_S200000x1_S200000x128_1_0_n_n_0_1_1128 (m ((c : Thread nD τ).loc main_arg1)) (idxWords (m ((c : Thread nD τ).loc main_arg0))))
      (broadcastInDim S200000x128 ![] bcast_S_S200000x128 (constant (F := Ideal) S_ .f32 0x7FC00000#32)))
    bitsLt_bf16_f32 : FVec Ideal S200000x128 .bf16) := by
  dsimp only [Gen.V]
  simp only [Gen.hostOps0, Gen.hostOps0_1, Gen.hostOps0_2, Gen.hostOps0_3, List.flatten_cons, List.flatten_nil, List.append_nil, List.cons_append, List.nil_append]
  after_results_simp
  simp only [cast_cast, cast_eq, id_eq]
  unfold idxWords
  rfl

/-- A row vector broadcast along the columns reads, at `(r, j)`, its entry `r`. -/
theorem bcast_row {α : Type} (y : S200000.Idx → α) (r : Fin 200000) (j : Fin 128) :
    broadcastInDim S200000x128 ![0] bcast_S200000_S200000x128_0 y (ix2 r j) = y (ix1 r) := by
  refine broadcastInDim_apply ![0] bcast_S200000_S200000x128_0 y (ix2 r j) (ix1 r) (fun a => ?_)
  obtain rfl : a = 0 := Subsingleton.elim _ _
  exact (if_neg (by decide)).symm

/-- The gathered rows the region stages: row `r` is the feature table's row `row nodes r`, when every node id is
    non-negative (the clip leaves the clamped row unchanged, and the gather helper's range test passes, so its fill
    value is never selected). -/
theorem self_read (c : Dev nD) (h0 : ∀ r : Fin 200000, 0 ≤ (sNodes m c (ix1 r)).toInt)
    (r : Fin 200000) (j : Fin 128) :
    sSelf m c (ix2 r j) = sFeat m c (ix2 (Cert.MlpSpec.row (sNodes m c) r) j) := by
  show V m c main_v2 (ix2 r j) = _
  rw [v2_term, truncf_apply, select_apply, bcast_row, mask_apply (sNodes m c) h0 r, select_one, gather_apply]
  refine congrArg (fun q => sFeat m c (ix2 q j)) (Fin.ext ?_)
  show min (idxWords (sNodes m c) (ix2 r 0)).toInt.toNat 999999 = min (sNodes m c (ix1 r)).toInt.toNat 999999
  rw [idxWords_apply]
  exact Cert.NodeIds.clipWord_row _ (h0 r)

end Cert.KernelIdeal.HostVals

end
-- ==== Proof.KernelHost.lean ====
import proofs.«401388_j41412074668228_3_alg».proof.Proof.Gen.KernelIdeal.Frame
import proofs.«401388_j41412074668228_3_alg».proof.Proof.Spec
import proofs.«401388_j41412074668228_3_alg».proof.Proof.NodeIds
import proofs.«401388_j41412074668228_3_alg».proof.Proof.KernelHostSelf
import Idealize.ShloMosaic.Lib.StableHlo.Run
import Idealize.ShloMosaic.Lib.ValueIdx
import Idealize.ShloMosaic.Lib.Pipeline.Value

noncomputable section

namespace Cert.KernelIdeal.HostVals

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! The argument arrays as launched, each at its literal type. -/
abbrev aNodes (c : Dev nD) : IVec S200000 32 := m ((c : Thread nD τ).loc main_arg0)
abbrev aFeat (c : Dev nD) : FVec Ideal S1000000x128 .f32 := m ((c : Thread nD τ).loc main_arg1)
abbrev aN0 (c : Dev nD) : FVec Ideal S200000x128 .f32 := m ((c : Thread nD τ).loc main_arg2)
abbrev aN1 (c : Dev nD) : FVec Ideal S200000x128 .f32 := m ((c : Thread nD τ).loc main_arg3)
abbrev aN2 (c : Dev nD) : FVec Ideal S200000x128 .f32 := m ((c : Thread nD τ).loc main_arg4)
abbrev aW1 (c : Dev nD) : FVec Ideal S128x512 .f32 := m ((c : Thread nD τ).loc main_arg5)
abbrev aB1 (c : Dev nD) : FVec Ideal S128 .f32 := m ((c : Thread nD τ).loc main_arg6)
abbrev aW2 (c : Dev nD) : FVec Ideal S128x128 .f32 := m ((c : Thread nD τ).loc main_arg7)
abbrev aB2 (c : Dev nD) : FVec Ideal S128 .f32 := m ((c : Thread nD τ).loc main_arg8)

/-! The arrays the region stages that host operations wrote, as it finds them, each at its literal type. -/
abbrev eSelf (c : Dev nD) : FVec Ideal S200000x128 .bf16 := V m c main_v2
abbrev eBand0 (c : Dev nD) : FVec Ideal S128x128 .bf16 := V m c main_v5
abbrev eBand1 (c : Dev nD) : FVec Ideal S128x128 .bf16 := V m c main_v9
abbrev eBand2 (c : Dev nD) : FVec Ideal S128x128 .bf16 := V m c main_v13
abbrev eBand3 (c : Dev nD) : FVec Ideal S128x128 .bf16 := V m c main_v17
abbrev eSecond (c : Dev nD) : FVec Ideal S128x128 .bf16 := V m c main_v19

/-! The weight arrays as the composed terms of the host operations that wrote them. -/

/-- Rows `o … o + 127` of the transposed first-layer weight. -/
theorem v5_term (c : Dev nD) : V m c main_v5 = (truncf .bf16 (extractStridedSlice S128x128 ![0, 0]
    (transpose S512x128 [1, 0] (m ((c : Thread nD τ).loc main_arg5)) transposes_S128x512_S512x128_1_0)
    slices_S512x128_S128x128_0_0) bitsLt_bf16_f32 : FVec Ideal S128x128 .bf16) := by
  dsimp only [Gen.V]
  simp only [Gen.hostOps0, Gen.hostOps0_1, Gen.hostOps0_2, Gen.hostOps0_3, List.flatten_cons, List.flatten_nil, List.append_nil, List.cons_append, List.nil_append]
  after_results

theorem v9_term (c : Dev nD) : V m c main_v9 = (truncf .bf16 (mulf (extractStridedSlice S128x128 ![128, 0]
    (transpose S512x128 [1, 0] (m ((c : Thread nD τ).loc main_arg5)) transposes_S128x512_S512x128_1_0)
    slices_S512x128_S128x128_128_0) (broadcastInDim S128x128 ![] bcast_S_S128x128 (constant (F := Ideal) S_ .f32 0x3F800000#32)))
    bitsLt_bf16_f32 : FVec Ideal S128x128 .bf16) := by
  dsimp only [Gen.V]
  simp only [Gen.hostOps0, Gen.hostOps0_1, Gen.hostOps0_2, Gen.hostOps0_3, List.flatten_cons, List.flatten_nil, List.append_nil, List.cons_append, List.nil_append]
  after_results

theorem v13_term (c : Dev nD) : V m c main_v13 = (truncf .bf16 (mulf (extractStridedSlice S128x128 ![256, 0]
    (transpose S512x128 [1, 0] (m ((c : Thread nD τ).loc main_arg5)) transposes_S128x512_S512x128_1_0)
    slices_S512x128_S128x128_256_0) (broadcastInDim S128x128 ![] bcast_S_S128x128 (constant (F := Ideal) S_ .f32 0x3F000000#32)))
    bitsLt_bf16_f32 : FVec Ideal S128x128 .bf16) := by
  dsimp only [Gen.V]
  simp only [Gen.hostOps0, Gen.hostOps0_1, Gen.hostOps0_2, Gen.hostOps0_3, List.flatten_cons, List.flatten_nil, List.append_nil, List.cons_append, List.nil_append]
  after_results

theorem v17_term (c : Dev nD) : V m c main_v17 = (truncf .bf16 (mulf (extractStridedSlice S128x128 ![384, 0]
    (transpose S512x128 [1, 0] (m ((c : Thread nD τ).loc main_arg5)) transposes_S128x512_S512x128_1_0)
    slices_S512x128_S128x128_384_0) (broadcastInDim S128x128 ![] bcast_S_S128x128 (constant (F := Ideal) S_ .f32 0x40000000#32)))
    bitsLt_bf16_f32 : FVec Ideal S128x128 .bf16) := by
  dsimp only [Gen.V]
  simp only [Gen.hostOps0, Gen.hostOps0_1, Gen.hostOps0_2, Gen.hostOps0_3, List.flatten_cons, List.flatten_nil, List.append_nil, List.cons_append, List.nil_append]
  after_results

theorem v19_term (c : Dev nD) : V m c main_v19 = (truncf .bf16
    (transpose S128x128 [1, 0] (m ((c : Thread nD τ).loc main_arg7)) transposes_S128x128_S128x128_1_0)
    bitsLt_bf16_f32 : FVec Ideal S128x128 .bf16) := by
  dsimp only [Gen.V]
  simp only [Gen.hostOps0, Gen.hostOps0_1, Gen.hostOps0_2, Gen.hostOps0_3, List.flatten_cons, List.flatten_nil, List.append_nil, List.cons_append, List.nil_append]
  after_results

/-- Row `o + j`, column `k` of the transposed first-layer weight's band starting at row `o` is `W1[k, o + j]`. -/
theorem band_read (o : Nat) (ho : o + 128 ≤ 512) (W : FVec Ideal S128x512 .f32) (hs : S512x128.Slices ![o, 0] S128x128)
    (j k : Fin 128) :
    extractStridedSlice S128x128 ![o, 0] (transpose S512x128 [1, 0] W transposes_S128x512_S512x128_1_0) hs (ix2 j k)
      = W (ix2 k (Cert.MlpSpec.col o ho j)) := by
  refine (extractStridedSlice_apply ![o, 0] _ hs (ix2 j k) (ix2 (Cert.MlpSpec.col o ho j) k) (fun a => ?_)).trans ?_
  · match a with
    | ⟨0, _⟩ => rfl
    | ⟨1, _⟩ => exact (Nat.zero_add _).symm
  · exact transpose_apply [1, 0] W transposes_S128x512_S512x128_1_0 (ix2 (Cert.MlpSpec.col o ho j) k)
      (ix2 k (Cert.MlpSpec.col o ho j)) (fun b => match b with
        | ⟨0, _⟩ => rfl
        | ⟨1, _⟩ => rfl)

/-- A splat of a scalar constant reads the extended real the constant's word encodes. -/
theorem splat_read (w : BitVec 32) (j k : Fin 128) :
    broadcastInDim S128x128 ![] bcast_S_S128x128 (constant (F := Ideal) S_ .f32 w) (ix2 j k) = Ideal.ofBits .f32 w :=
  broadcastInDim_apply _ bcast_S_S128x128 (constant (F := Ideal) S_ .f32 w) (ix2 j k) ix0 (fun a => a.elim0)

/-- The gathered rows the region stages: row `r` is the feature table's row `row nodes r`, when every node id is
    non-negative (the clip leaves the clamped row unchanged, and the gather helper's range test passes, so its fill
    value is never selected). -/
theorem self_apply (c : Dev nD) (h0 : ∀ r : Fin 200000, 0 ≤ (aNodes m c (ix1 r)).toInt)
    (r : Fin 200000) (j : Fin 128) :
    eSelf m c (ix2 r j) = aFeat m c (ix2 (Cert.MlpSpec.row (aNodes m c) r) j) :=
  self_read m c h0 r j

/-- The first band of the transposed first-layer weight. -/
theorem band0_apply (c : Dev nD) (j k : Fin 128) :
    eBand0 m c (ix2 j k) = aW1 m c (ix2 k (Cert.MlpSpec.col 0 (by omega) j)) := by
  show V m c main_v5 (ix2 j k) = _
  rw [v5_term]
  exact band_read 0 (by omega) _ slices_S512x128_S128x128_0_0 j k

/-- The second band, scaled by the channel weight 1. -/
theorem band1_apply (c : Dev nD) (j k : Fin 128) :
    eBand1 m c (ix2 j k) = aW1 m c (ix2 k (Cert.MlpSpec.col 128 (by omega) j)) * Cert.MlpSpec.cOne := by
  show V m c main_v9 (ix2 j k) = _
  rw [v9_term]
  exact congrArg₂ (· * ·) (band_read 128 (by omega) _ slices_S512x128_S128x128_128_0 j k) (splat_read 0x3F800000#32 j k)

/-- The third band, scaled by the channel weight 1/2. -/
theorem band2_apply (c : Dev nD) (j k : Fin 128) :
    eBand2 m c (ix2 j k) = aW1 m c (ix2 k (Cert.MlpSpec.col 256 (by omega) j)) * Cert.MlpSpec.cHalf := by
  show V m c main_v13 (ix2 j k) = _
  rw [v13_term]
  exact congrArg₂ (· * ·) (band_read 256 (by omega) _ slices_S512x128_S128x128_256_0 j k) (splat_read 0x3F000000#32 j k)

/-- The fourth band, scaled by the channel weight 2. -/
theorem band3_apply (c : Dev nD) (j k : Fin 128) :
    eBand3 m c (ix2 j k) = aW1 m c (ix2 k (Cert.MlpSpec.col 384 (by omega) j)) * Cert.MlpSpec.cTwo := by
  show V m c main_v17 (ix2 j k) = _
  rw [v17_term]
  exact congrArg₂ (· * ·) (band_read 384 (by omega) _ slices_S512x128_S128x128_384_0 j k) (splat_read 0x40000000#32 j k)

/-- The transposed second-layer weight. -/
theorem second_apply (c : Dev nD) (k e : Fin 128) :
    eSecond m c (ix2 k e) = aW2 m c (ix2 e k) := by
  show V m c main_v19 (ix2 k e) = _
  rw [v19_term]
  exact transpose_apply [1, 0] _ transposes_S128x128_S128x128_1_0 (ix2 k e) (ix2 e k) (fun b => match b with
    | ⟨0, _⟩ => rfl
    | ⟨1, _⟩ => rfl)

end Cert.KernelIdeal.HostVals

end
-- ==== Proof.KernelValue.lean ====
import proofs.«401388_j41412074668228_3_alg».proof.Proof.Gen.KernelIdeal.Value
import proofs.«401388_j41412074668228_3_alg».proof.Proof.KernelPayload
import proofs.«401388_j41412074668228_3_alg».proof.Proof.KernelHost
import proofs.«401388_j41412074668228_3_alg».proof.Proof.Spec
import Idealize.ShloMosaic.Lib.Pipeline.Value
import Idealize.ShloMosaic.Lib.ValueIdx

/-!
# The kernel's result array is the encoder `G` of its arguments

The grid has 50 points; point `t` stages rows `4000·t … 4000·t + 3999` of the gathered rows and of the three
neighbour arrays, the five weight blocks and the two bias rows whole, and writes back rows `4000·t …` of the result.
Entry `(p, q)` of the block point `t` writes is the body's arithmetic of those blocks; read through the blocks and
through what the host operations before the region put in the staged arrays, it is `G` at row `4000·t + p`, column `q`.
The 50 blocks tile the result array, so after the run the array is `G`.
-/

noncomputable section

namespace Cert.KernelIdeal.Final

open Cert.KernelIdeal Cert.KernelIdeal.Gen Idealize.ShloMosaic Idealize.ShloMosaic.TcCoe Idealize.SL.Sem
open Idealize.ShloMosaic.ValueIdx Cert.KernelIdeal.HostVals
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The index maps over the grid: the row windows move with the point, the others stay -/

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows2 : ∀ t : Fin cfg0.N, win0_2.index t (0 : Fin 2) = t.val ∧ win0_2.index t (1 : Fin 2) = 0 :=
  (by decide +kernel : ∀ t : Fin grid0.N, _)
theorem idx_rows3 : ∀ t : Fin cfg0.N, win0_3.index t (0 : Fin 2) = t.val ∧ win0_3.index t (1 : Fin 2) = 0 :=
  (by decide +kernel : ∀ t : Fin grid0.N, _)
theorem idx_rows11 : ∀ t : Fin cfg0.N, win0_11.index t (0 : Fin 2) = t.val ∧ win0_11.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_vec9 : ∀ t : Fin cfg0.N, win0_9.index t (0 : Fin 1) = 0 :=
  (by decide +kernel : ∀ t : Fin grid0.N, _)
theorem idx_vec10 : ∀ t : Fin cfg0.N, win0_10.index t (0 : Fin 1) = 0 :=
  (by decide +kernel : ∀ t : Fin grid0.N, _)

/-! ## Each window's block at a point, read off the array the region finds -/

/-- Rows `4000·t …` of the gathered rows. -/
theorem blk_self (c : Dev nD) (t : Fin cfg0.N) (p : Fin 4000) (j : Fin 128) :
    iblk m c 0 t (ix2 p j) = eSelf m c (ix2 ⟨t.val * 4000 + p.val, by have ht : t.val < 50 := t.isLt; have := p.isLt; omega⟩ j) := by
  obtain ⟨e0, e1⟩ := idx_rows0 t
  have h : ((cfg0.win 0).blk t).view.emb (ix2 p j)
      = ix2 ⟨t.val * 4000 + p.val, by have ht : t.val < 50 := t.isLt; have := p.isLt; omega⟩ j := by
    funext a; apply Fin.ext
    match a with
    | ⟨0, _⟩ => show win0_0.index t (0 : Fin 2) * 4000 + 1 * p.val = t.val * 4000 + p.val; omega
    | ⟨1, _⟩ => show win0_0.index t (1 : Fin 2) * 128 + 1 * j.val = j.val; omega
  show V m c main_v2 (((cfg0.win 0).blk t).view.emb (ix2 p j)) = _
  rw [h]

/-- Rows `4000·t …` of the first neighbour array. -/
theorem blk_n0 (c : Dev nD) (t : Fin cfg0.N) (p : Fin 4000) (j : Fin 128) :
    iblk m c 1 t (ix2 p j) = aN0 m c (ix2 ⟨t.val * 4000 + p.val, by have ht : t.val < 50 := t.isLt; have := p.isLt; omega⟩ j) := by
  obtain ⟨e0, e1⟩ := idx_rows1 t
  have h : ((cfg0.win 1).blk t).view.emb (ix2 p j)
      = ix2 ⟨t.val * 4000 + p.val, by have ht : t.val < 50 := t.isLt; have := p.isLt; omega⟩ j := by
    funext a; apply Fin.ext
    match a with
    | ⟨0, _⟩ => show win0_1.index t (0 : Fin 2) * 4000 + 1 * p.val = t.val * 4000 + p.val; omega
    | ⟨1, _⟩ => show win0_1.index t (1 : Fin 2) * 128 + 1 * j.val = j.val; omega
  show V m c main_arg2 (((cfg0.win 1).blk t).view.emb (ix2 p j)) = _
  rw [h, V_main_arg2 m c]

/-- Rows `4000·t …` of the second neighbour array. -/
theorem blk_n1 (c : Dev nD) (t : Fin cfg0.N) (p : Fin 4000) (j : Fin 128) :
    iblk m c 2 t (ix2 p j) = aN1 m c (ix2 ⟨t.val * 4000 + p.val, by have ht : t.val < 50 := t.isLt; have := p.isLt; omega⟩ j) := by
  obtain ⟨e0, e1⟩ := idx_rows2 t
  have h : ((cfg0.win 2).blk t).view.emb (ix2 p j)
      = ix2 ⟨t.val * 4000 + p.val, by have ht : t.val < 50 := t.isLt; have := p.isLt; omega⟩ j := by
    funext a; apply Fin.ext
    match a with
    | ⟨0, _⟩ => show win0_2.index t (0 : Fin 2) * 4000 + 1 * p.val = t.val * 4000 + p.val; omega
    | ⟨1, _⟩ => show win0_2.index t (1 : Fin 2) * 128 + 1 * j.val = j.val; omega
  show V m c main_arg3 (((cfg0.win 2).blk t).view.emb (ix2 p j)) = _
  rw [h, V_main_arg3 m c]

/-- Rows `4000·t …` of the third neighbour array. -/
theorem blk_n2 (c : Dev nD) (t : Fin cfg0.N) (p : Fin 4000) (j : Fin 128) :
    iblk m c 3 t (ix2 p j) = aN2 m c (ix2 ⟨t.val * 4000 + p.val, by have ht : t.val < 50 := t.isLt; have := p.isLt; omega⟩ j) := by
  obtain ⟨e0, e1⟩ := idx_rows3 t
  have h : ((cfg0.win 3).blk t).view.emb (ix2 p j)
      = ix2 ⟨t.val * 4000 + p.val, by have ht : t.val < 50 := t.isLt; have := p.isLt; omega⟩ j := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * j.val = j.val; omega
  show V m c main_arg4 (((cfg0.win 3).blk t).view.emb (ix2 p j)) = _
  rw [h, V_main_arg4 m c]

/-- The first weight band, whole. -/
theorem blk_band0 (c : Dev nD) (t : Fin cfg0.N) (j k : Fin 128) :
    iblk m c 4 t (ix2 j k) = eBand0 m c (ix2 j k) := by
  obtain ⟨e0, e1⟩ := idx_whole4 t
  have h : ((cfg0.win 4).blk t).view.emb (ix2 j k) = ix2 j k := by
    funext a; apply Fin.ext
    match a with
    | ⟨0, _⟩ => show win0_4.index t (0 : Fin 2) * 128 + 1 * j.val = j.val; omega
    | ⟨1, _⟩ => show win0_4.index t (1 : Fin 2) * 128 + 1 * k.val = k.val; omega
  show V m c main_v5 (((cfg0.win 4).blk t).view.emb (ix2 j k)) = _
  rw [h]

/-- The second weight band, whole. -/
theorem blk_band1 (c : Dev nD) (t : Fin cfg0.N) (j k : Fin 128) :
    iblk m c 5 t (ix2 j k) = eBand1 m c (ix2 j k) := by
  obtain ⟨e0, e1⟩ := idx_whole5 t
  have h : ((cfg0.win 5).blk t).view.emb (ix2 j k) = ix2 j k := by
    funext a; apply Fin.ext
    match a with
    | ⟨0, _⟩ => show win0_5.index t (0 : Fin 2) * 128 + 1 * j.val = j.val; omega
    | ⟨1, _⟩ => show win0_5.index t (1 : Fin 2) * 128 + 1 * k.val = k.val; omega
  show V m c main_v9 (((cfg0.win 5).blk t).view.emb (ix2 j k)) = _
  rw [h]

/-- The third weight band, whole. -/
theorem blk_band2 (c : Dev nD) (t : Fin cfg0.N) (j k : Fin 128) :
    iblk m c 6 t (ix2 j k) = eBand2 m c (ix2 j k) := by
  obtain ⟨e0, e1⟩ := idx_whole6 t
  have h : ((cfg0.win 6).blk t).view.emb (ix2 j k) = ix2 j k := by
    funext a; apply Fin.ext
    match a with
    | ⟨0, _⟩ => show win0_6.index t (0 : Fin 2) * 128 + 1 * j.val = j.val; omega
    | ⟨1, _⟩ => show win0_6.index t (1 : Fin 2) * 128 + 1 * k.val = k.val; omega
  show V m c main_v13 (((cfg0.win 6).blk t).view.emb (ix2 j k)) = _
  rw [h]

/-- The fourth weight band, whole. -/
theorem blk_band3 (c : Dev nD) (t : Fin cfg0.N) (j k : Fin 128) :
    iblk m c 7 t (ix2 j k) = eBand3 m c (ix2 j k) := by
  obtain ⟨e0, e1⟩ := idx_whole7 t
  have h : ((cfg0.win 7).blk t).view.emb (ix2 j k) = ix2 j k := by
    funext a; apply Fin.ext
    match a with
    | ⟨0, _⟩ => show win0_7.index t (0 : Fin 2) * 128 + 1 * j.val = j.val; omega
    | ⟨1, _⟩ => show win0_7.index t (1 : Fin 2) * 128 + 1 * k.val = k.val; omega
  show V m c main_v17 (((cfg0.win 7).blk t).view.emb (ix2 j k)) = _
  rw [h]

/-- The second layer's weight, whole. -/
theorem blk_second (c : Dev nD) (t : Fin cfg0.N) (j k : Fin 128) :
    iblk m c 8 t (ix2 j k) = eSecond m c (ix2 j k) := by
  obtain ⟨e0, e1⟩ := idx_whole8 t
  have h : ((cfg0.win 8).blk t).view.emb (ix2 j k) = ix2 j k := by
    funext a; apply Fin.ext
    match a with
    | ⟨0, _⟩ => show win0_8.index t (0 : Fin 2) * 128 + 1 * j.val = j.val; omega
    | ⟨1, _⟩ => show win0_8.index t (1 : Fin 2) * 128 + 1 * k.val = k.val; omega
  show V m c main_v19 (((cfg0.win 8).blk t).view.emb (ix2 j k)) = _
  rw [h]

/-- The first bias row, whole. -/
theorem blk_b1 (c : Dev nD) (t : Fin cfg0.N) (k : Fin 128) :
    iblk m c 9 t (ix1 k) = aB1 m c (ix1 k) := by
  have e0 := idx_vec9 t
  have h : ((cfg0.win 9).blk t).view.emb (ix1 k) = ix1 k := by
    funext a; apply Fin.ext
    match a with
    | ⟨0, _⟩ => show win0_9.index t (0 : Fin 1) * 128 + 1 * k.val = k.val; omega
  show V m c main_arg6 (((cfg0.win 9).blk t).view.emb (ix1 k)) = _
  rw [h, V_main_arg6 m c]

/-- The second bias row, whole. -/
theorem blk_b2 (c : Dev nD) (t : Fin cfg0.N) (k : Fin 128) :
    iblk m c 10 t (ix1 k) = aB2 m c (ix1 k) := by
  have e0 := idx_vec10 t
  have h : ((cfg0.win 10).blk t).view.emb (ix1 k) = ix1 k := by
    funext a; apply Fin.ext
    match a with
    | ⟨0, _⟩ => show win0_10.index t (0 : Fin 1) * 128 + 1 * k.val = k.val; omega
  show V m c main_arg8 (((cfg0.win 10).blk t).view.emb (ix1 k)) = _
  rw [h, V_main_arg8 m c]

/-! ## What a point writes -/

/-- The encoder of the arguments as launched. -/
abbrev GK (c : Dev nD) : FVec Ideal S200000x128 .f32 :=
  Cert.MlpSpec.G (aNodes m c) (aFeat m c) (aN0 m c) (aN1 m c) (aN2 m c) (aW1 m c) (aB1 m c) (aW2 m c) (aB2 m c)

/-- The block a point leaves, at entry `(p, q)`, for ANY staged blocks: the body's arithmetic of them. -/
theorem out_apply (x0 : FVec Ideal S4000x128 .bf16) (x1 x2 x3 : FVec Ideal S4000x128 .f32)
    (x4 x5 x6 x7 x8 : FVec Ideal S128x128 .bf16) (x9 x10 : FVec Ideal S128 .f32) (p : Fin 4000) (q : Fin 128) :
    out0_11 (F := Ideal) x0 x1 x2 x3 x4 x5 x6 x7 x8 x9 x10 (ix2 p q)
      = (∑ k : Fin 128, Ideal.tanh (((((∑ j : Fin 128, x0 (ix2 p j) * x4 (ix2 j k))
            + ∑ j : Fin 128, x1 (ix2 p j) * x5 (ix2 j k))
            + ∑ j : Fin 128, x2 (ix2 p j) * x6 (ix2 j k))
            + ∑ j : Fin 128, x3 (ix2 p j) * x7 (ix2 j k))
          + x9 (ix1 k)) * x8 (ix2 k q)) + x10 (ix1 q) := by
  unfold out0_11
  rw [Value.canon11_eq]
  dsimp only [Value.E11]
  simp only [View.ld_unit_zero (S := S4000x128) hz2, View.ld_unit_zero (S := S128x128) hz2, View.ld_unit_zero (S := S128) hz1]
  have e0 : Value.ix11_0 (ix2 p q) = ix2 p q := funext fun a => by
    match a with
    | ⟨0, _⟩ => rfl
    | ⟨1, _⟩ => rfl
  have e1 : Value.ix11_1 (ix2 p q) = ix1 q := funext fun a => by
    match a with
    | ⟨0, _⟩ => rfl
  rw [e0, e1, Payload.pay2_apply, View.ld_unit_zero (S := S128) hz1]
  rfl

/-- Entry `(p, q)` of the block point `t` leaves is `G` at row `4000·t + p`, column `q`. -/
theorem block_value (c : Dev nD) (h0 : ∀ r : Fin 200000, 0 ≤ (aNodes m c (ix1 r)).toInt) (t : Fin cfg0.N)
    (p : Fin 4000) (q : Fin 128) :
    out0_11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 p q)
      = GK m c (ix2 ⟨t.val * 4000 + p.val, by have ht : t.val < 50 := t.isLt; have := p.isLt; omega⟩ q) := by
  refine (out_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) p q).trans ?_
  simp only [blk_self m c t, blk_n0 m c t, blk_n1 m c t, blk_n2 m c t, blk_band0 m c t, blk_band1 m c t, blk_band2 m c t,
    blk_band3 m c t, blk_second m c t, blk_b1 m c t, blk_b2 m c t]
  simp only [self_apply m c h0, band0_apply m c, band1_apply m c, band2_apply m c, band3_apply m c, second_apply m c]
  rfl

/-- What point `t` writes back is block `t` of `G`. -/
theorem flushed_eq (c : Dev nD) (h0 : ∀ r : Fin 200000, 0 ≤ (aNodes m c (ix1 r)).toInt) (t : Fin cfg0.N) :
    (dats m 0 c).flushed 11 t = ((cfg0.win 11).blk t).view.read (Elt Ideal) (GK m c) := by
  rw [Value.flushed11]
  obtain ⟨e0, e1⟩ := idx_rows11 t
  funext y
  show out0_11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) y = GK m c (((cfg0.win 11).blk t).view.emb y)
  have hy : y = ix2 ⟨(y 0).val, idx2_lt0 y⟩ ⟨(y 1).val, idx2_lt1 y⟩ := funext fun a => by
    match a with
    | ⟨0, _⟩ => rfl
    | ⟨1, _⟩ => rfl
  have hemb : ((cfg0.win 11).blk t).view.emb y
      = ix2 ⟨t.val * 4000 + (y 0).val, by have ht : t.val < 50 := t.isLt; have := idx2_lt0 y; omega⟩ ⟨(y 1).val, idx2_lt1 y⟩ := by
    funext a; apply Fin.ext
    match a with
    | ⟨0, _⟩ => show win0_11.index t (0 : Fin 2) * 4000 + 1 * (y 0).val = t.val * 4000 + (y 0).val; omega
    | ⟨1, _⟩ => show win0_11.index t (1 : Fin 2) * 128 + 1 * (y 1).val = (y 1).val; omega
  rw [hemb]
  exact (congrArg _ hy).trans (block_value m c h0 t ⟨(y 0).val, idx2_lt0 y⟩ ⟨(y 1).val, idx2_lt1 y⟩)

/-! ## The blocks tile the result array -/

/-- An index is in point `t`'s block iff each coordinate is in the block's range on its axis. -/
theorem mem_blk (t : Fin cfg0.N) (i : S200000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v20).slice (win0_11.rect t)).set ↔ _
  rw [View.set_slice_whole, Rect.mem_set_unit]
  exact Iff.rfl

/-- Row `r` lies in the block of point `r / 4000`. -/
theorem cover (i : S200000x128.Idx) :
    ∃ t : Fin cfg0.N, (cfg0.win 11).flush t = true ∧ i ∈ ((cfg0.win 11).blk t).view.set := by
  have hi0 : (i 0).val < 200000 := (i 0).isLt
  have hi1 : (i 1).val < 128 := (i 1).isLt
  let t : Fin cfg0.N := ⟨(i 0).val / 4000, by show (i 0).val / 4000 < 50; omega⟩
  obtain ⟨e0, e1⟩ := idx_rows11 t
  have ht : t.val = (i 0).val / 4000 := rfl
  refine ⟨t, flush0_11 t, ?_⟩
  rw [mem_blk]
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 128 ≤ (i 1).val ∧ (i 1).val < win0_11.index t (1 : Fin 2) * 128 + 128; omega

/-- After the run the result array is `G` of the arguments. -/
theorem final (c : Dev nD) (h0 : ∀ r : Fin 200000, 0 ≤ (aNodes m c (ix1 r)).toInt) :
    (dats m 0 c).arrAt 11 cfg0.N = GK m c :=
  (dats m 0 c).arrAt_eq_of_cover 11 (GK m c) (fun t _ => flushed_eq m c h0 t) cover

end Cert.KernelIdeal.Final

end
-- ==== Proof.RefValue.lean ====
import proofs.«401388_j41412074668228_3_alg».proof.Proof.Gen.ReferenceIdeal.Read
import proofs.«401388_j41412074668228_3_alg».proof.Proof.Spec
import proofs.«401388_j41412074668228_3_alg».proof.Proof.NodeIds
import Idealize.ShloMosaic.Lib.Pipeline.Value
import Idealize.ShloMosaic.Lib.ValueIdx
import Idealize.ShloMosaic.PureOps.Ideal.Laws

/-!
# The reference's result is the encoder `G`

Read one element at a time. The gather reads the table at the row its start index names, signed and clamped into
`[0, 999999]`; the start index is the node id with negatives wrapped, which for a non-negative id is the id itself,
so the row is `row nodes r`. The joined row of 512 columns is, band by band, the gathered table row and the three
neighbour rows each times its channel weight. The first layer's sum over the 512 columns splits into the four sums
of 128, and in each `(n·c)·W = n·(W·c)` by associativity and commutativity of the extended reals' product. The rest
(`tanh`, the second layer, the biases) matches term by term.
-/

noncomputable section

namespace Cert.ReferenceIdeal.RefValue

open Cert.ReferenceIdeal Cert.ReferenceIdeal.Gen Idealize.ShloMosaic Idealize.ShloMosaic.TcCoe Idealize.ShloMosaic.ValueIdx

/-- The table gather read at `(r, j)`: the table at the row named by start index `idx[r, 0]`, read signed and
    clamped into `[0, 999999]`, and at column `j`. -/
theorem gather_apply {α : Type} {w : Nat} (x : S1000000x128.Idx → α) (idx : IVec S200000x1 w)
    (r : Fin 200000) (j : Fin 128) :
    Host.gather gather_S1000000x128_S200000x1_S200000x128_1_0_n_n_0_1_1128 x idx (ix2 r j)
      = x (ix2 ⟨min (idx (ix2 r 0)).toInt.toNat 999999, by omega⟩ j) := by
  unfold Host.gather
  congr 1
  funext a
  refine Fin.ext ?_
  match a with
  | ⟨0, _⟩ =>
    show gather_S1000000x128_S200000x1_S200000x128_1_0_n_n_0_1_1128.start (ix2 r j) idx 0
        + gather_S1000000x128_S200000x1_S200000x128_1_0_n_n_0_1_1128.batchCoord (ix2 r j) 0
        + gather_S1000000x128_S200000x1_S200000x128_1_0_n_n_0_1_1128.offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x128_S200000x1_S200000x128_1_0_n_n_0_1_1128.startIndexMap from List.mem_singleton.mpr rfl)]
    have hsi : gather_S1000000x128_S200000x1_S200000x128_1_0_n_n_0_1_1128.siIdx (ix2 r j)
        ⟨List.idxOf (0 : Fin 2) gather_S1000000x128_S200000x1_S200000x128_1_0_n_n_0_1_1128.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show gather_S1000000x128_S200000x1_S200000x128_1_0_n_n_0_1_1128.start (ix2 r j) idx 1
        + gather_S1000000x128_S200000x1_S200000x128_1_0_n_n_0_1_1128.batchCoord (ix2 r j) 1
        + gather_S1000000x128_S200000x1_S200000x128_1_0_n_n_0_1_1128.offCoord (ix2 r j) 1 = _
    rw [GatherDims.batchCoord_eq_zero _ _ _ List.not_mem_nil]
    unfold GatherDims.start
    rw [dif_neg (show ¬ (1 : Fin 2) ∈ gather_S1000000x128_S200000x1_S200000x128_1_0_n_n_0_1_1128.startIndexMap by decide)]
    simp only [Nat.add_zero, Nat.zero_add]
    rfl

/-- The start index the reference hands the gather at row `r`: the node id with negatives wrapped. -/
theorem startWord_apply (x0 : IVec S200000 32) (r : Fin 200000) :
    Cert.ReferenceIdeal.Read.val_main_v5 (F := Ideal) x0 (ix2 r 0) = Cert.NodeIds.wrapWord (x0 (ix1 r)) := by
  rw [Cert.ReferenceIdeal.Read.val_main_v5_apply, Cert.ReferenceIdeal.Read.val_main_v4_apply,
    Cert.ReferenceIdeal.Read.val_main_v1_apply, Cert.ReferenceIdeal.Read.val_main_v3_apply,
    Cert.ReferenceIdeal.Read.val_main_v0_apply, Cert.ReferenceIdeal.Read.val_main_v2_apply,
    Cert.ReferenceIdeal.Read.val_main_c_apply, Cert.ReferenceIdeal.Read.val_main_c_0_apply]
  have e : Cert.ReferenceIdeal.Read.idx_main_v5 (ix2 r (0 : Fin 1)) = ix1 r := by
    funext a; match a with | ⟨0, _⟩ => rfl
  rw [e]
  rfl

/-- The gathered table row: for a non-negative node id, row `row nodes r` of the table. -/
theorem gathered_apply (x0 : IVec S200000 32) (x1 : FVec Ideal S1000000x128 .f32)
    (h0 : ∀ r : Fin 200000, 0 ≤ (x0 (ix1 r)).toInt) (r : Fin 200000) (j : Fin 128) :
    Cert.ReferenceIdeal.Read.val_main_v6 (F := Ideal) x0 x1 (ix2 r j) = x1 (ix2 (Cert.MlpSpec.row x0 r) j) := by
  unfold Cert.ReferenceIdeal.Read.val_main_v6
  rw [gather_apply]
  have e : Cert.ReferenceIdeal.Read.val_main_v5 (F := Ideal) x0 (ix2 r 0) = x0 (ix1 r) := by
    rw [startWord_apply, Cert.NodeIds.wrapWord_eq _ (h0 r)]
  simp only [e]
  rfl

/-- Columns `0 … 127` of the joined row are the gathered table row. -/
theorem comb_band0 (x0 : IVec S200000 32) (x1 : FVec Ideal S1000000x128 .f32) (x2 x3 x4 : FVec Ideal S200000x128 .f32)
    (r : Fin 200000) (j : Fin 128) :
    Cert.ReferenceIdeal.Read.val_main_v13 (F := Ideal) x0 x1 x2 x3 x4 (ix2 r (Cert.MlpSpec.col 0 (by omega) j))
      = Cert.ReferenceIdeal.Read.val_main_v6 (F := Ideal) x0 x1 (ix2 r j) := by
  unfold Cert.ReferenceIdeal.Read.val_main_v13
  exact concatenate_apply_piece (1 : Fin S200000x512.rank) _ _ _ 0 (by simp) S200000x128 _ rfl rfl 0 rfl (ix2 r j)
    (fun b hb => match b with | ⟨0, _⟩ => rfl | ⟨1, _⟩ => absurd rfl hb) (by simp [Cert.MlpSpec.col])

/-- Columns `128 … 255` of the joined row are the first neighbour row times its channel weight. -/
theorem comb_band1 (x0 : IVec S200000 32) (x1 : FVec Ideal S1000000x128 .f32) (x2 x3 x4 : FVec Ideal S200000x128 .f32)
    (r : Fin 200000) (j : Fin 128) :
    Cert.ReferenceIdeal.Read.val_main_v13 (F := Ideal) x0 x1 x2 x3 x4 (ix2 r (Cert.MlpSpec.col 128 (by omega) j))
      = Cert.ReferenceIdeal.Read.val_main_v8 (F := Ideal) x2 (ix2 r j) := by
  unfold Cert.ReferenceIdeal.Read.val_main_v13
  exact concatenate_apply_piece (1 : Fin S200000x512.rank) _ _ _ 1 (by simp) S200000x128 _ rfl rfl 128 rfl (ix2 r j)
    (fun b hb => match b with | ⟨0, _⟩ => rfl | ⟨1, _⟩ => absurd rfl hb) (by simp [Cert.MlpSpec.col])

/-- Columns `256 … 383` of the joined row are the second neighbour row times its channel weight. -/
theorem comb_band2 (x0 : IVec S200000 32) (x1 : FVec Ideal S1000000x128 .f32) (x2 x3 x4 : FVec Ideal S200000x128 .f32)
    (r : Fin 200000) (j : Fin 128) :
    Cert.ReferenceIdeal.Read.val_main_v13 (F := Ideal) x0 x1 x2 x3 x4 (ix2 r (Cert.MlpSpec.col 256 (by omega) j))
      = Cert.ReferenceIdeal.Read.val_main_v10 (F := Ideal) x3 (ix2 r j) := by
  unfold Cert.ReferenceIdeal.Read.val_main_v13
  exact concatenate_apply_piece (1 : Fin S200000x512.rank) _ _ _ 2 (by simp) S200000x128 _ rfl rfl 256 rfl (ix2 r j)
    (fun b hb => match b with | ⟨0, _⟩ => rfl | ⟨1, _⟩ => absurd rfl hb) (by simp [Cert.MlpSpec.col])

/-- Columns `384 … 511` of the joined row are the third neighbour row times its channel weight. -/
theorem comb_band3 (x0 : IVec S200000 32) (x1 : FVec Ideal S1000000x128 .f32) (x2 x3 x4 : FVec Ideal S200000x128 .f32)
    (r : Fin 200000) (j : Fin 128) :
    Cert.ReferenceIdeal.Read.val_main_v13 (F := Ideal) x0 x1 x2 x3 x4 (ix2 r (Cert.MlpSpec.col 384 (by omega) j))
      = Cert.ReferenceIdeal.Read.val_main_v12 (F := Ideal) x4 (ix2 r j) := by
  unfold Cert.ReferenceIdeal.Read.val_main_v13
  exact concatenate_apply_piece (1 : Fin S200000x512.rank) _ _ _ 3 (by simp) S200000x128 _ rfl rfl 384 rfl (ix2 r j)
    (fun b hb => match b with | ⟨0, _⟩ => rfl | ⟨1, _⟩ => absurd rfl hb) (by simp [Cert.MlpSpec.col])

/-- The first neighbour row times its channel weight, at an index. -/
theorem scaled0_apply (x2 : FVec Ideal S200000x128 .f32) (r : Fin 200000) (j : Fin 128) :
    Cert.ReferenceIdeal.Read.val_main_v8 (F := Ideal) x2 (ix2 r j) = x2 (ix2 r j) * Cert.MlpSpec.cOne := by
  rw [Cert.ReferenceIdeal.Read.val_main_v8_apply, Cert.ReferenceIdeal.Read.val_main_v7_apply,
    Cert.ReferenceIdeal.Read.val_main_cst_apply, Ideal.mulf_def, Ideal.ofBits_def]
  rfl

/-- The second neighbour row times its channel weight, at an index. -/
theorem scaled1_apply (x3 : FVec Ideal S200000x128 .f32) (r : Fin 200000) (j : Fin 128) :
    Cert.ReferenceIdeal.Read.val_main_v10 (F := Ideal) x3 (ix2 r j) = x3 (ix2 r j) * Cert.MlpSpec.cHalf := by
  rw [Cert.ReferenceIdeal.Read.val_main_v10_apply, Cert.ReferenceIdeal.Read.val_main_v9_apply,
    Cert.ReferenceIdeal.Read.val_main_cst_1_apply, Ideal.mulf_def, Ideal.ofBits_def]
  rfl

/-- The third neighbour row times its channel weight, at an index. -/
theorem scaled2_apply (x4 : FVec Ideal S200000x128 .f32) (r : Fin 200000) (j : Fin 128) :
    Cert.ReferenceIdeal.Read.val_main_v12 (F := Ideal) x4 (ix2 r j) = x4 (ix2 r j) * Cert.MlpSpec.cTwo := by
  rw [Cert.ReferenceIdeal.Read.val_main_v12_apply, Cert.ReferenceIdeal.Read.val_main_v11_apply,
    Cert.ReferenceIdeal.Read.val_main_cst_2_apply, Ideal.mulf_def, Ideal.ofBits_def]
  rfl

/-- The first product's left index: row `r`, column `c` of the joined rows. -/
theorem lidx15_eq (r : Fin 200000) (k : Fin 128) (c : Fin 512) :
    Cert.ReferenceIdeal.Read.lidx_main_v15 (ix2 r k) c = ix2 r c := by
  funext a; match a with | ⟨0, _⟩ => rfl | ⟨1, _⟩ => rfl

/-- The first layer's transposed weight at the product's right index is `W1[k, c]`. -/
theorem w1T_apply (x5 : FVec Ideal S128x512 .f32) (r : Fin 200000) (k : Fin 128) (c : Fin 512) :
    Cert.ReferenceIdeal.Read.val_main_v14 (F := Ideal) x5 (Cert.ReferenceIdeal.Read.ridx_main_v15 (ix2 r k) c)
      = x5 (ix2 k c) := by
  rw [Cert.ReferenceIdeal.Read.val_main_v14_apply]
  congr 1
  funext a; match a with | ⟨0, _⟩ => rfl | ⟨1, _⟩ => rfl

/-- The first layer before `tanh`: the sum over the 512 joined columns, split into its four bands with each
    channel weight moved onto the weight, plus the bias. -/
theorem firstLayer_apply (x0 : IVec S200000 32) (x1 : FVec Ideal S1000000x128 .f32) (x2 x3 x4 : FVec Ideal S200000x128 .f32)
    (x5 : FVec Ideal S128x512 .f32) (x6 : FVec Ideal S128 .f32)
    (h0 : ∀ r : Fin 200000, 0 ≤ (x0 (ix1 r)).toInt) (r : Fin 200000) (k : Fin 128) :
    Cert.ReferenceIdeal.Read.val_main_v18 (F := Ideal) x0 x1 x2 x3 x4 x5 x6 (ix2 r k)
      = Cert.MlpSpec.pre x0 x1 x2 x3 x4 x5 x6 r k := by
  rw [Cert.ReferenceIdeal.Read.val_main_v18_apply, Cert.ReferenceIdeal.Read.val_main_v15_apply,
    Cert.ReferenceIdeal.Read.val_main_v17_apply, Cert.ReferenceIdeal.Read.val_main_v16_apply, Ideal.addf_def,
    Cert.MlpSpec.sum_bands]
  unfold Cert.MlpSpec.pre
  have hb : Cert.ReferenceIdeal.Read.idx_main_v16 (Cert.ReferenceIdeal.Read.idx_main_v17 (ix2 r k)) = ix1 k := by
    funext a; match a with | ⟨0, _⟩ => rfl
  rw [hb]
  congr 1
  congr 1
  · congr 1
    · congr 1
      · refine Finset.sum_congr rfl fun j _ => ?_
        rw [lidx15_eq, w1T_apply, comb_band0, gathered_apply x0 x1 h0]
      · refine Finset.sum_congr rfl fun j _ => ?_
        rw [lidx15_eq, w1T_apply, comb_band1, scaled0_apply, mul_assoc, mul_comm Cert.MlpSpec.cOne]
    · refine Finset.sum_congr rfl fun j _ => ?_
      rw [lidx15_eq, w1T_apply, comb_band2, scaled1_apply, mul_assoc, mul_comm Cert.MlpSpec.cHalf]
  · refine Finset.sum_congr rfl fun j _ => ?_
    rw [lidx15_eq, w1T_apply, comb_band3, scaled2_apply, mul_assoc, mul_comm Cert.MlpSpec.cTwo]

/-- The second product's left index: row `r`, column `k` of the hidden rows. -/
theorem lidx21_eq (r : Fin 200000) (e : Fin 128) (k : Fin 128) :
    Cert.ReferenceIdeal.Read.lidx_main_v21 (ix2 r e) k = ix2 r k := by
  funext a; match a with | ⟨0, _⟩ => rfl | ⟨1, _⟩ => rfl

/-- The second layer's transposed weight at the product's right index is `W2[e, k]`. -/
theorem w2T_apply (x7 : FVec Ideal S128x128 .f32) (r : Fin 200000) (e : Fin 128) (k : Fin 128) :
    Cert.ReferenceIdeal.Read.val_main_v20 (F := Ideal) x7 (Cert.ReferenceIdeal.Read.ridx_main_v21 (ix2 r e) k)
      = x7 (ix2 e k) := by
  rw [Cert.ReferenceIdeal.Read.val_main_v20_apply]
  congr 1
  funext a; match a with | ⟨0, _⟩ => rfl | ⟨1, _⟩ => rfl

/-- The reference's result array is the encoder `G` of its arguments, when every node id is non-negative. -/
theorem ref_eq_G (x0 : IVec S200000 32) (x1 : FVec Ideal S1000000x128 .f32) (x2 x3 x4 : FVec Ideal S200000x128 .f32)
    (x5 : FVec Ideal S128x512 .f32) (x6 : FVec Ideal S128 .f32) (x7 : FVec Ideal S128x128 .f32) (x8 : FVec Ideal S128 .f32)
    (h0 : ∀ r : Fin 200000, 0 ≤ (x0 (ix1 r)).toInt) :
    Cert.ReferenceIdeal.Read.val_main_v24 (F := Ideal) x0 x1 x2 x3 x4 x5 x6 x7 x8 = Cert.MlpSpec.G x0 x1 x2 x3 x4 x5 x6 x7 x8 := by
  funext i
  obtain ⟨r, e, rfl⟩ : ∃ r e, i = ix2 r e := ⟨i 0, i 1, eq_ix2 i⟩
  rw [Cert.ReferenceIdeal.Read.val_main_v24_apply, Cert.ReferenceIdeal.Read.val_main_v21_apply,
    Cert.ReferenceIdeal.Read.val_main_v23_apply, Cert.ReferenceIdeal.Read.val_main_v22_apply, Ideal.addf_def]
  unfold Cert.MlpSpec.G
  have hb : Cert.ReferenceIdeal.Read.idx_main_v22 (Cert.ReferenceIdeal.Read.idx_main_v23 (ix2 r e)) = ix1 e := by
    funext a; match a with | ⟨0, _⟩ => rfl
  rw [hb]
  congr 1
  refine Finset.sum_congr rfl fun k _ => ?_
  rw [lidx21_eq, w2T_apply, Cert.ReferenceIdeal.Read.val_main_v19_apply, Ideal.hostUnary_tanh_def,
    firstLayer_apply x0 x1 x2 x3 x4 x5 x6 h0]

end Cert.ReferenceIdeal.RefValue

end
-- ==== Proof.PreDecode.lean ====
import proofs.«401388_j41412074668228_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- A rank-0 shape has one index. -/
instance : Subsingleton S_.Idx := ⟨fun a b => funext fun d => d.elim0⟩

/-- The precondition's last conjunct, read back: every node id is non-negative as a signed integer. -/
theorem nodes_nonneg [Cert.Pre_finite_inputs.Facts] (x0 : IVec S200000 32) (x1 : FVec Ideal S1000000x128 .f32)
    (x2 x3 x4 : FVec Ideal S200000x128 .f32) (x5 : FVec Ideal S128x512 .f32) (x6 : FVec Ideal S128 .f32)
    (x7 : FVec Ideal S128x128 .f32) (x8 : FVec Ideal S128 .f32)
    (h : Cert.Pre_finite_inputs.fn (F := Ideal) x0 x1 x2 x3 x4 x5 x6 x7 x8 = fun _ => 1#1) (r : Fin 200000) :
    0 ≤ (x0 (ix1 r)).toInt := by
  -- the predicate at its one index is the conjunction of nine `all`s; the last is `all (x0 ≥ 0)`
  have e := congrFun h ix0
  unfold Cert.Pre_finite_inputs.fn Cert.Pre_finite_inputs.fn_part1 Cert.Pre_finite_inputs.fn_part2 at e
  dsimp only at e
  have e2 := (IntOp.andi_eq_one.1 e).2
  -- an `and`-reduction over the whole vector that is 1 had a 1 at every entry
  have e3 := Host.reduce_andi_all _ _ _ _ _ e2 (ix1 r)
  -- entry r of the comparison is `x0[r] ≥ 0`, signed
  have e4 : IntOp.cmpi .sge (x0 (ix1 r)) 0#32 = 1#1 := e3
  have e5 := IntOp.cmpi_sge.1 e4
  have h0 : (0#32 : BitVec 32).toInt = 0 := by decide
  rw [h0] at e5
  exact e5

end Cert.PreDecode

end
-- ==== Proof.lean ====
/-
  The certificate of the two-layer node encoder.

  The kernel gathers one feature row per node id on the host, streams it with the three neighbour rows through a
  pipelined region of 50 blocks of 4000 rows, and there computes `tanh (x·A₀ + n0·A₁ + n1·A₂ + n2·A₃ + b1)·W2ᵀ + b2` with
  `A₀ … A₃` the four 128-column bands of `W1ᵀ`, the channel weights 1, 1/2, 2 already multiplied into `A₁, A₂, A₃`.
  The reference concatenates the gathered row with the scaled neighbour rows into one row of 512 numbers and applies
  `W1ᵀ` whole. Over the extended reals the two agree: a sum over 512 columns is the sum of its four bands, and
  `(n·c)·w = n·(w·c)` by associativity and commutativity of the product alone, so finiteness of the inputs is not used.
  The programs differ on a NEGATIVE node id (the kernel clips it to row 0, the reference counts it from the table's
  end), so the statement carries the precondition that every node id is non-negative; for a non-negative id both read
  row `min id 999999`.

  Both results are shown to be the one function `Cert.MlpSpec.G` of the arguments (Proof/Spec.lean): the kernel's
  through its generated blockwise value leg, the body's arithmetic at an index (Proof/KernelPayload.lean), the staged
  arrays the host operations wrote (Proof/KernelHost.lean) and the tiling of the result by the 50 blocks
  (Proof/KernelValue.lean); the reference's through its generated run read one operation at a time
  (Proof/RefValue.lean). Proof/PreDecode.lean reads the node ids' sign out of the precondition, Proof/NodeIds.lean has
  the word arithmetic of the clip and the wrap.
-/
import proofs.«401388_j41412074668228_3_alg».proof.Defs
import proofs.«401388_j41412074668228_3_alg».proof.Proof.Gen.Kernel
import proofs.«401388_j41412074668228_3_alg».proof.Proof.Gen.Kernel.Skeleton
import proofs.«401388_j41412074668228_3_alg».proof.Proof.Gen.Kernel.Launch
import proofs.«401388_j41412074668228_3_alg».proof.Proof.Gen.Kernel.Points
import proofs.«401388_j41412074668228_3_alg».proof.Proof.Gen.Kernel.Frame
import proofs.«401388_j41412074668228_3_alg».proof.Proof.Gen.KernelIdeal
import proofs.«401388_j41412074668228_3_alg».proof.Proof.Gen.KernelIdeal.Skeleton
import proofs.«401388_j41412074668228_3_alg».proof.Proof.Gen.KernelIdeal.Launch
import proofs.«401388_j41412074668228_3_alg».proof.Proof.Gen.KernelIdeal.Points
import proofs.«401388_j41412074668228_3_alg».proof.Proof.Gen.KernelIdeal.Frame
import proofs.«401388_j41412074668228_3_alg».proof.Proof.Gen.ReferenceIdeal
import proofs.«401388_j41412074668228_3_alg».proof.Proof.Gen.Pre_finite_inputs
import proofs.«401388_j41412074668228_3_alg».proof.Proof.Gen.KernelIdeal.Value
import proofs.«401388_j41412074668228_3_alg».proof.Proof.Gen.ReferenceIdeal.Run
import proofs.«401388_j41412074668228_3_alg».proof.Proof.Gen.ReferenceIdeal.Read
import proofs.«401388_j41412074668228_3_alg».proof.Proof.KernelValue
import proofs.«401388_j41412074668228_3_alg».proof.Proof.RefValue
import proofs.«401388_j41412074668228_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Both programs end with the encoder `G` of the arguments in their result array. -/
theorem algebraic : Cert.algebraic_KernelIdeal_ReferenceIdeal := by
  intro m ρ m' ρ' hpre hagree
  have h0 : ∀ (c : Dev Cert.KernelIdeal.nD) (r : Fin 200000),
      0 ≤ (Cert.KernelIdeal.HostVals.aNodes m c (ix1 r)).toInt := fun c r =>
    Cert.PreDecode.nodes_nonneg _ _ _ _ _ _ _ _ _ (hpre c) r
  refine ⟨fun c => Cert.KernelIdeal.Final.GK m c, ?_, ?_⟩
  · exact (θ_run Cert.KernelIdeal.defs _ _).mono
      (fun r h c => ⟨(h c).1.trans (Cert.KernelIdeal.Final.final m c (h0 c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact Cert.ReferenceIdeal.RefValue.ref_eq_G _ _ _ _ _ _ _ _ _ (h0 c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
